-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S2048x1024 : Shape := ⟨2, ![2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S2048x1024 .f32) (main_arg2 : FVec F S1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S2048x1024 : Shape := ⟨2, ![2048, 1024]⟩
abbrev S1024 : Shape := ⟨1, ![1024]⟩
abbrev S1x1024 : Shape := ⟨2, ![1, 1024]⟩
abbrev S1x2048x1024 : Shape := ⟨3, ![1, 2048, 1024]⟩
abbrev S2048 : Shape := ⟨1, ![2048]⟩
abbrev S2048x1 : Shape := ⟨2, ![2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S1x2048x1024, .f32⟩
  | .local _ .vmem, ⟨6, _⟩ => ⟨S1x2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S2048x1024_S1x2048x1024 : S2048x1024.ShapeCasts S1x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S4x2048x1024.size a
  hwx0_4 : ∀ i : grid0.Coords, EltTy.bits .f32 = 32 ∨ (Rect.block (s := S4x2048x1024) S1x2048x1024.size (cc0_transform_4 i) (hinb0_4 i)).WholeWords (EltTy.packing .f32)

variable [Facts₀]

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S2048x1024 : Shape := ⟨2, ![2048, 1024]⟩
abbrev S1024 : Shape := ⟨1, ![1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S2048x1024, .f32⟩
  | .hbm, ⟨24, _⟩ => ⟨S2048x1024, .i1⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S1x2048x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x2048x1, .f32⟩
  | .hbm, ⟨52, _⟩ => ⟨S4x2048x1024, .f32⟩
  | .hbm, ⟨53, _⟩ => ⟨S4x2048x1024, .f32⟩
  | .hbm, ⟨54, _⟩ => ⟨S1x1x1024, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x1024_0 : S2048.BroadcastsInDim S2048x1024 (![0] : Fin 1 → Fin S2048x1024.rank)
  bcast_S_S2048x1024 : S_.BroadcastsInDim S2048x1024 (![] : Fin 0 → Fin S2048x1024.rank)
  bcast_S2048x1024_S1x2048x1024_1_2 : S2048x1024.BroadcastsInDim S1x2048x1024 (![1, 2] : Fin 2 → Fin S1x2048x1024.rank)
  bcast_S1x2048x1024_S4x2048x1024_0_1_2 : S1x2048x1024.BroadcastsInDim S4x2048x1024 (![0, 1, 2] : Fin 3 → Fin S4x2048x1024.rank)
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  gather_S2048x1024_S2048x1_S2048x1024_1_0_n_n_0_1_11024_wf : GatherDims.WF S2048x1024 S2048x1 S2048x1024 [1] [0] [] [0] [] 1 ![1, 1024]

variable [Facts₀]

def gather_S2048x1024_S2048x1_S2048x1024_1_0_n_n_0_1_11024 : GatherDims S2048x1024 S2048x1 S2048x1024 where
  offsetDims := [1]
  collapsedSliceDims := [0]
  operandBatchingDims := []
  startIndicesBatchingDims := []
  startIndexMap := [0]
  indexVectorDim := 1
  sliceSizes := ![1, 1024]
  wf := gather_S2048x1024_S2048x1_S2048x1024_1_0_n_n_0_1_11024_wf

class Facts : Prop extends Facts₀ where

variable [Facts]
-- ==== Proof.Consts.lean ====
/-
  The float words the two programs spell, as the extended reals they denote: the zero the sums start from, the
  reciprocal 2⁻¹⁰ = 1/1024 the kernel multiplies by, the divisor 1024 of the reference's means, and the positive
  real the shared epsilon word denotes (only its sign is ever used: both sides add the same word).
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `0x3A800000` is the dyadic `2⁻¹⁰`, exactly `1/1024`. -/
theorem ofBits_inv1024 : Ideal.ofBits .f32 0x3A800000#32 = ((1 / 1024 : ℝ) : EReal) := by
  simp [Ideal.ofBits, Ideal.ieee, -EReal.coe_mul]; norm_num

/-- `0x44800000` is `1024`. -/
theorem ofBits_1024 : Ideal.ofBits .f32 0x44800000#32 = ((1024 : ℝ) : EReal) := by
  simp [Ideal.ofBits, Ideal.ieee, -EReal.coe_mul]; norm_num

/-- The epsilon word `0x3727C5AC` denotes a positive real. -/
theorem ofBits_eps_pos : ∃ ε : ℝ, 0 < ε ∧ Ideal.ofBits .f32 0x3727C5AC#32 = ((ε : ℝ) : EReal) := by
  refine ⟨_, ?_, by simp [Ideal.ofBits, Ideal.ieee, -EReal.coe_mul]; rfl⟩
  norm_num

end Cert.Consts

end
-- ==== Proof.LibVariance.lean ====
/-
  The variance identity on the extended reals, for real data.

  For a finite family of real numbers `x i`, read as extended reals, with `n` its cardinality (nonzero), write
  `μ = (Σ_j x_j)·(1/n)` for the mean.  The mean of the squared deviations equals the mean of the squares less the
  square of the mean:

      (Σ_i (x_i − μ)·(x_i − μ))·(1/n) = (Σ_i x_i·x_i)·(1/n) − μ·μ .

  Every division by `n` is written as the product with the reciprocal `1/n` (which is what a division of an extended
  real by a nonzero real is).  Since every term is the image of a real number, both sides are images of real numbers:
  the finite sum of images is the image of the finite sum, and so are differences and products; the identity is then the
  usual one over the reals, which follows from expanding the square termwise,
  `(x_i − μ)² = x_i² − 2μ·x_i + μ²`, summing, and using `Σ_i μ² = n·μ²` with `μ = S/n`.
-/
import Mathlib.Data.EReal.Inv
import Mathlib.Algebra.BigOperators.Group.Finset.Basic
import Mathlib.Algebra.BigOperators.Ring.Finset
import Mathlib.Tactic.Ring
import Mathlib.Tactic.FieldSimp
import Idealize.ShloMosaic.PureOps.Ideal

noncomputable section

namespace Cert.Bridge

/-- A finite sum of images of real numbers in the extended reals is the image of the real sum. -/
theorem coe_finset_sum {ι : Type} (s : Finset ι) (f : ι → ℝ) :
    (∑ i ∈ s, ((f i : ℝ) : EReal)) = ((∑ i ∈ s, f i : ℝ) : EReal) := by
  classical
  refine Finset.induction_on s (by simp) ?_
  intro a t ha ih
  rw [Finset.sum_insert ha, Finset.sum_insert ha, ih, EReal.coe_add]

/-- The variance identity over the reals: with `n` the number of terms and `S` their sum, the sum of the squared
    deviations from `S/n`, divided by `n`, is the sum of the squares divided by `n`, less `(S/n)²`. -/
theorem var_identity_real {ι : Type} [Fintype ι] (x : ι → ℝ) (n : ℝ) (hn : n ≠ 0)
    (hcard : (Fintype.card ι : ℝ) = n) :
    (∑ i, (x i - (∑ j, x j) * (1 / n)) * (x i - (∑ j, x j) * (1 / n))) * (1 / n)
      = (∑ i, x i * x i) * (1 / n) - ((∑ j, x j) * (1 / n)) * ((∑ j, x j) * (1 / n)) := by
  set S : ℝ := ∑ j, x j with hS
  set μ : ℝ := S * (1 / n) with hμ
  have hterm : ∀ i, (x i - μ) * (x i - μ) = x i * x i - 2 * μ * x i + μ * μ := fun i => by ring
  have hsum : (∑ i, (x i - μ) * (x i - μ)) = (∑ i, x i * x i) - 2 * μ * S + n * (μ * μ) := by
    rw [Finset.sum_congr rfl (fun i _ => hterm i), Finset.sum_add_distrib, Finset.sum_sub_distrib,
      ← Finset.mul_sum, Finset.sum_const, Finset.card_univ, nsmul_eq_mul, hcard]
  rw [hsum, hμ]
  field_simp
  ring

/-- The variance identity on the extended reals, for real data: the mean of the squared deviations from the mean is
    the mean of the squares less the square of the mean, each division by `n` being the product with `1/n`. -/
theorem var_identity {ι : Type} [Fintype ι] (x : ι → ℝ) (n : ℝ) (hn : n ≠ 0)
    (hcard : (Fintype.card ι : ℝ) = n) :
    (∑ i, ((x i : EReal) - (∑ j, (x j : EReal)) * ((1 / n : ℝ) : EReal))
          * ((x i : EReal) - (∑ j, (x j : EReal)) * ((1 / n : ℝ) : EReal))) * ((1 / n : ℝ) : EReal)
      = (∑ i, (x i : EReal) * (x i : EReal)) * ((1 / n : ℝ) : EReal)
        - ((∑ j, (x j : EReal)) * ((1 / n : ℝ) : EReal)) * ((∑ j, (x j : EReal)) * ((1 / n : ℝ) : EReal)) := by
  have hS : (∑ j, (x j : EReal)) = ((∑ j, x j : ℝ) : EReal) := coe_finset_sum _ _
  have hQ : (∑ i, (x i : EReal) * (x i : EReal)) = ((∑ i, x i * x i : ℝ) : EReal) := by
    exact (Finset.sum_congr rfl (fun i _ => (EReal.coe_mul (x i) (x i)).symm)).trans
      (coe_finset_sum Finset.univ (fun i => x i * x i))
  have hD : (∑ i, ((x i : EReal) - ((∑ j, x j : ℝ) : EReal) * ((1 / n : ℝ) : EReal))
          * ((x i : EReal) - ((∑ j, x j : ℝ) : EReal) * ((1 / n : ℝ) : EReal)))
      = ((∑ i, (x i - (∑ j, x j) * (1 / n)) * (x i - (∑ j, x j) * (1 / n)) : ℝ) : EReal) := by
    refine (Finset.sum_congr rfl (fun i _ => ?_)).trans
      (coe_finset_sum Finset.univ (fun i => (x i - (∑ j, x j) * (1 / n)) * (x i - (∑ j, x j) * (1 / n))))
    rw [← EReal.coe_mul, ← EReal.coe_sub, ← EReal.coe_mul]
  rw [hS, hD, hQ, ← EReal.coe_mul, ← EReal.coe_mul, ← EReal.coe_mul, ← EReal.coe_mul, ← EReal.coe_sub,
    var_identity_real x n hn hcard]

end Cert.Bridge

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.Spec.lean ====
/-
  LayerNorm of `x + pos` over the last axis, written twice, index by index, on the extended reals.

  With `emb b s e = x[b, s, e] + pos[s, e]`, a row's sum `Σₖ emb b s k` and its sum of squares, the kernel's form takes
  the mean as the sum times 2⁻¹⁰, the variance as (mean of squares) − mean², and scales by the reciprocal square root:
      ((emb − mean) · rsqrt(var + ε)) · γ[e] + β[e].
  The reference's form divides the sums by 1024, takes the variance as the mean of the squared deviations, and divides by
  the square root:
      ((emb − mean) / sqrt(var + ε)) · γ[e] + β[e].
  Over real data the two agree: 2⁻¹⁰ is exactly 1/1024, the two variances are one real number (the variance identity),
  it is nonnegative, ε is positive, so the argument of the root is a positive real, on which `rsqrt v = 1/√v` and
  `a / √v = a · (1/√v)`. γ and β enter both forms the same way and may be any extended reals.
-/
import Idealize.ShloMosaic.PureOps.Ideal
import Idealize.ShloMosaic.Lib.ValueIdx
import proofs.«171602_g7713761264236_cont_9to1c4b_83_7_alg».proof.Proof.Consts
import proofs.«171602_g7713761264236_cont_9to1c4b_83_7_alg».proof.Proof.LibVariance
import proofs.«171602_g7713761264236_cont_9to1c4b_83_7_alg».proof.Proof.LibIdealReal

noncomputable section

namespace Cert.LayerNorm

open Idealize.ShloMosaic Idealize.ShloMosaic.ValueIdx

/-- The activations `[4, 2048, 1024]`. -/
abbrev SX : Shape := ⟨3, ![4, 2048, 1024]⟩
/-- The position table `[2048, 1024]`. -/
abbrev SP : Shape := ⟨2, ![2048, 1024]⟩
/-- A vector over the embedding axis `[1024]`. -/
abbrev SV : Shape := ⟨1, ![1024]⟩

variable (x : SX.Idx → EReal) (p : SP.Idx → EReal) (g be : SV.Idx → EReal)

/-- The embedded entry: the activation plus the position row's entry. -/
def emb (b : Fin 4) (s : Fin 2048) (e : Fin 1024) : EReal := x (ix3 b s e) + p (ix2 s e)

/-- The kernel's mean of row `(b, s)`: the row sum times the word `2⁻¹⁰`. -/
def meanK (b : Fin 4) (s : Fin 2048) : EReal :=
  (∑ k : Fin 1024, emb x p b s k) * Ideal.ofBits .f32 0x3A800000#32

/-- The kernel's mean of squares of row `(b, s)`. -/
def ex2K (b : Fin 4) (s : Fin 2048) : EReal :=
  (∑ k : Fin 1024, emb x p b s k * emb x p b s k) * Ideal.ofBits .f32 0x3A800000#32

/-- The kernel's result at `(b, s, e)`. -/
def kerAt (b : Fin 4) (s : Fin 2048) (e : Fin 1024) : EReal :=
  (emb x p b s e - meanK x p b s)
      * Ideal.rsqrt (ex2K x p b s - meanK x p b s * meanK x p b s + Ideal.ofBits .f32 0x3727C5AC#32)
      * g (ix1 e)
    + be (ix1 e)

/-- The reference's mean of row `(b, s)`: zero plus the row sum, divided by the word `1024`. -/
def meanR (b : Fin 4) (s : Fin 2048) : EReal :=
  Ideal.div (Ideal.ofBits .f32 0x00000000#32 + ∑ k : Fin 1024, emb x p b s k) (Ideal.ofBits .f32 0x44800000#32)

/-- The reference's variance of row `(b, s)`: the mean of the squared deviations from `meanR`. -/
def varR (b : Fin 4) (s : Fin 2048) : EReal :=
  Ideal.div
    (Ideal.ofBits .f32 0x00000000#32
      + ∑ k : Fin 1024, (emb x p b s k - meanR x p b s) * (emb x p b s k - meanR x p b s))
    (Ideal.ofBits .f32 0x44800000#32)

/-- The reference's result at `(b, s, e)`. -/
def refAt (b : Fin 4) (s : Fin 2048) (e : Fin 1024) : EReal :=
  Ideal.div (emb x p b s e - meanR x p b s) (Ideal.sqrt (varR x p b s + Ideal.ofBits .f32 0x3727C5AC#32))
      * g (ix1 e)
    + be (ix1 e)

/-- The kernel's result array. -/
def kerOut : SX.Idx → EReal := fun i => kerAt x p g be (i 0) (i 1) (i 2)

/-- The reference's result array. -/
def refOut : SX.Idx → EReal := fun i => refAt x p g be (i 0) (i 1) (i 2)

theorem kerOut_ix3 (b : Fin 4) (s : Fin 2048) (e : Fin 1024) :
    kerOut x p g be (ix3 b s e) = kerAt x p g be b s e := rfl

theorem refOut_ix3 (b : Fin 4) (s : Fin 2048) (e : Fin 1024) :
    refOut x p g be (ix3 b s e) = refAt x p g be b s e := rfl

end Cert.LayerNorm

end
-- ==== Proof.KernelBlock.lean ====
/-
  One block of the kernel's result, index by index. The body's value at block index (0, s, e), as the generated
  value leg states it over the loaded blocks P0 (activations), P1 (positions), P2 (scale row), P3 (shift row), is
      ((P0[0,s,e] + P1[s,e]) − (Σₖ (P0[0,s,k] + P1[s,k])) · 2⁻¹⁰) · rsqrt(…) · P2[0,e] + P3[0,e],
  the two lane sums being sums over the 1024 entries of row s. When the loaded blocks are batch b of the activations,
  the whole position table and the scale and shift vectors laid out as rows, this is the kernel's form of the
  specification at (b, s, e).
-/
import proofs.«171602_g7713761264236_cont_9to1c4b_83_7_alg».proof.Proof.Gen.KernelIdeal.Value
import proofs.«171602_g7713761264236_cont_9to1c4b_83_7_alg».proof.Proof.Spec
import Idealize.ShloMosaic.PureOps.Ideal.Laws
import Idealize.ShloMosaic.Lib.Pipeline.Value
import Idealize.ShloMosaic.Lib.ValueIdx

noncomputable section

namespace Cert.KernelIdeal.KBlock

open Cert.KernelIdeal Cert.KernelIdeal.Gen Idealize.ShloMosaic Idealize.ShloMosaic.ValueIdx

/-- A lane sum of a `[2048, 1024]` array, read at row `s`, is the sum of that row's 1024 entries. -/
theorem rowsum_apply (A : FVec Ideal S2048x1024 .f32) (h : S2048x1024.Reduces [1] S2048) (s : Fin 2048) :
    multiReduction .add [1] S2048 A 0x00000000#32 h (.inl rfl) rfl (ix1 s) = ∑ k : Fin 1024, A (ix2 s k) := by
  refine (Ideal.multiReduction_add_single A 0x00000000#32 h (.inl rfl) rfl (ix1 s)).trans ?_
  show ∑ k : Fin 1024, A (h.lift (ix1 s) k) = _
  refine Finset.sum_congr rfl fun k _ => congrArg A ?_
  funext a; apply Fin.ext
  match a with
  | ⟨0, _⟩ => rfl
  | ⟨1, _⟩ => rfl

/-- The activations' block `[1, 2048, 1024]` read as `[2048, 1024]`: entry `(s, k)` is the block's `(0, s, k)`. -/
theorem cast_apply (P0 : FVec Ideal S1x2048x1024 .f32) (h : S1x2048x1024.ShapeCasts S2048x1024) (s : Fin 2048) (k : Fin 1024) :
    shapeCast S2048x1024 P0 h (ix2 s k) = P0 (ix3 (0 : Fin 1) s k) :=
  shapeCast_apply P0 h (ix2 s k) (ix3 (0 : Fin 1) s k) (by
    rw [Shape.rowMajor_val_three, Shape.rowMajor_val_two]
    show (0 * 2048 + s.val) * 1024 + k.val = s.val * 1024 + k.val
    omega)

theorem ix4_0_eq (u : Fin 1) (s : Fin 2048) (e : Fin 1024) : Value.ix4_0 (ix3 u s e) = ix3 (0 : Fin 1) s e := by
  funext a; apply Fin.ext
  match a with
  | ⟨0, _⟩ => rfl
  | ⟨1, _⟩ => rfl
  | ⟨2, _⟩ => rfl

theorem ix4_1_eq (u : Fin 1) (s : Fin 2048) (e : Fin 1024) : Value.ix4_1 (ix3 u s e) = ix2 s e := by
  funext a; apply Fin.ext
  match a with
  | ⟨0, _⟩ => rfl
  | ⟨1, _⟩ => rfl

theorem ix4_2_eq (u : Fin 1) (s : Fin 2048) (e : Fin 1024) : Value.ix4_2 (ix3 u s e) = ix1 s := by
  funext a; apply Fin.ext
  match a with
  | ⟨0, _⟩ => rfl

theorem ix4_3_eq (u : Fin 1) (s : Fin 2048) (e : Fin 1024) : Value.ix4_3 (ix3 u s e) = ix1 s := by
  funext a; apply Fin.ext
  match a with
  | ⟨0, _⟩ => rfl

theorem ix4_4_eq (u : Fin 1) (s : Fin 2048) (e : Fin 1024) : Value.ix4_4 (ix3 u s e) = ix1 s := by
  funext a; apply Fin.ext
  match a with
  | ⟨0, _⟩ => rfl

theorem ix4_5_eq (u : Fin 1) (s : Fin 2048) (e : Fin 1024) : Value.ix4_5 (ix3 u s e) = ix1 s := by
  funext a; apply Fin.ext
  match a with
  | ⟨0, _⟩ => rfl

theorem ix4_6_eq (u : Fin 1) (s : Fin 2048) (e : Fin 1024) : Value.ix4_6 (ix3 u s e) = ix2 (0 : Fin 1) e := by
  funext a; apply Fin.ext
  match a with
  | ⟨0, _⟩ => rfl
  | ⟨1, _⟩ => rfl

theorem ix4_7_eq (u : Fin 1) (s : Fin 2048) (e : Fin 1024) : Value.ix4_7 (ix3 u s e) = ix2 (0 : Fin 1) e := by
  funext a; apply Fin.ext
  match a with
  | ⟨0, _⟩ => rfl
  | ⟨1, _⟩ => rfl

/-- THE BLOCK: when `P0` is batch `b` of the activations, `P1` the position table and `P2`, `P3` the scale and shift
    vectors as rows, the body's value at block index `(u, s, e)` is the kernel's form at `(b, s, e)`. -/
theorem E4_apply (P0 : FVec Ideal S1x2048x1024 .f32) (P1 : FVec Ideal S2048x1024 .f32) (P2 P3 : FVec Ideal S1x1024 .f32)
    (x : Cert.LayerNorm.SX.Idx → EReal) (p : Cert.LayerNorm.SP.Idx → EReal) (g be : Cert.LayerNorm.SV.Idx → EReal) (b : Fin 4)
    (h0 : ∀ (s : Fin 2048) (e : Fin 1024), P0 (ix3 (0 : Fin 1) s e) = x (ix3 b s e))
    (h1 : ∀ (s : Fin 2048) (e : Fin 1024), P1 (ix2 s e) = p (ix2 s e))
    (h2 : ∀ e : Fin 1024, P2 (ix2 (0 : Fin 1) e) = g (ix1 e))
    (h3 : ∀ e : Fin 1024, P3 (ix2 (0 : Fin 1) e) = be (ix1 e))
    (u : Fin 1) (s : Fin 2048) (e : Fin 1024) :
    Value.E4 (F := Ideal) P0 P1 P2 P3 (ix3 u s e) = Cert.LayerNorm.kerAt x p g be b s e := by
  have hA : ∀ k : Fin 1024, addf (shapeCast S2048x1024 P0 shapeCasts_S1x2048x1024_S2048x1024) P1 (ix2 s k)
      = Cert.LayerNorm.emb x p b s k := fun k => by
    show shapeCast S2048x1024 P0 shapeCasts_S1x2048x1024_S2048x1024 (ix2 s k) + P1 (ix2 s k) = _
    rw [cast_apply, h0, h1]; rfl
  have hS1 : multiReduction .add [1] S2048 (addf (shapeCast S2048x1024 P0 shapeCasts_S1x2048x1024_S2048x1024) P1)
        0x00000000#32 reduces_S2048x1024_S2048 (.inl rfl) rfl (ix1 s) = ∑ k : Fin 1024, Cert.LayerNorm.emb x p b s k :=
    (rowsum_apply _ _ s).trans (Finset.sum_congr rfl fun k _ => hA k)
  have hS2 : multiReduction .add [1] S2048 (mulf (addf (shapeCast S2048x1024 P0 shapeCasts_S1x2048x1024_S2048x1024) P1)
          (addf (shapeCast S2048x1024 P0 shapeCasts_S1x2048x1024_S2048x1024) P1))
        0x00000000#32 reduces_S2048x1024_S2048 (.inl rfl) rfl (ix1 s)
      = ∑ k : Fin 1024, Cert.LayerNorm.emb x p b s k * Cert.LayerNorm.emb x p b s k :=
    (rowsum_apply _ _ s).trans (Finset.sum_congr rfl fun k _ => by
      show addf (shapeCast S2048x1024 P0 shapeCasts_S1x2048x1024_S2048x1024) P1 (ix2 s k)
          * addf (shapeCast S2048x1024 P0 shapeCasts_S1x2048x1024_S2048x1024) P1 (ix2 s k) = _
      rw [hA k])
  have hE : P0 (ix3 (0 : Fin 1) s e) + P1 (ix2 s e) = Cert.LayerNorm.emb x p b s e := by rw [h0, h1]; rfl
  show (P0 (Value.ix4_0 (ix3 u s e)) + P1 (Value.ix4_1 (ix3 u s e))
        - multiReduction .add [1] S2048 (addf (shapeCast S2048x1024 P0 shapeCasts_S1x2048x1024_S2048x1024) P1)
            0x00000000#32 reduces_S2048x1024_S2048 (.inl rfl) rfl (Value.ix4_2 (ix3 u s e)) * Ideal.ofBits .f32 0x3A800000#32)
      * Ideal.rsqrt (multiReduction .add [1] S2048 (mulf (addf (shapeCast S2048x1024 P0 shapeCasts_S1x2048x1024_S2048x1024) P1)
              (addf (shapeCast S2048x1024 P0 shapeCasts_S1x2048x1024_S2048x1024) P1))
            0x00000000#32 reduces_S2048x1024_S2048 (.inl rfl) rfl (Value.ix4_3 (ix3 u s e)) * Ideal.ofBits .f32 0x3A800000#32
          - multiReduction .add [1] S2048 (addf (shapeCast S2048x1024 P0 shapeCasts_S1x2048x1024_S2048x1024) P1)
              0x00000000#32 reduces_S2048x1024_S2048 (.inl rfl) rfl (Value.ix4_4 (ix3 u s e)) * Ideal.ofBits .f32 0x3A800000#32
            * (multiReduction .add [1] S2048 (addf (shapeCast S2048x1024 P0 shapeCasts_S1x2048x1024_S2048x1024) P1)
              0x00000000#32 reduces_S2048x1024_S2048 (.inl rfl) rfl (Value.ix4_5 (ix3 u s e)) * Ideal.ofBits .f32 0x3A800000#32)
          + Ideal.ofBits .f32 0x3727C5AC#32)
      * P2 (Value.ix4_6 (ix3 u s e)) + P3 (Value.ix4_7 (ix3 u s e)) = _
  rw [ix4_0_eq, ix4_1_eq, ix4_2_eq, ix4_3_eq, ix4_4_eq, ix4_5_eq, ix4_6_eq, ix4_7_eq, hS1, hS2, hE, h2, h3]
  rfl

end Cert.KernelIdeal.KBlock

end
-- ==== Proof.KernelValue.lean ====
/-
  From blocks to the array. The grid has four points, one per batch entry: point t stages batch b(t) of the
  activations (all 2048 rows), the whole position table, and the scale and shift vectors laid out as one row each, and
  writes back batch b(t) of the result. What it writes back is the kernel's form of the specification read through that
  block; the four blocks cover the result array, so after the run the array IS the kernel's form.
-/
import proofs.«171602_g7713761264236_cont_9to1c4b_83_7_alg».proof.Proof.Gen.KernelIdeal.Value
import proofs.«171602_g7713761264236_cont_9to1c4b_83_7_alg».proof.Proof.KernelBlock
import proofs.«171602_g7713761264236_cont_9to1c4b_83_7_alg».proof.Proof.Spec
import Idealize.ShloMosaic.Lib.StableHlo.Run
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The four argument arrays as launched. -/
abbrev xArr (c : Dev nD) : FVec Ideal S4x2048x1024 .f32 := m ((c : Thread nD τ).loc main_arg0)
abbrev pArr (c : Dev nD) : FVec Ideal S2048x1024 .f32 := m ((c : Thread nD τ).loc main_arg1)
abbrev gArr (c : Dev nD) : FVec Ideal S1024 .f32 := m ((c : Thread nD τ).loc main_arg2)
abbrev bArr (c : Dev nD) : FVec Ideal S1024 .f32 := m ((c : Thread nD τ).loc main_arg3)

/-- The blocks point `t` stages, at their literal types. -/
abbrev blk0 (c : Dev nD) (t : Fin cfg0.N) : FVec Ideal S1x2048x1024 .f32 := iblk m c 0 t
abbrev blk1 (c : Dev nD) (t : Fin cfg0.N) : FVec Ideal S2048x1024 .f32 := iblk m c 1 t
abbrev blk2 (c : Dev nD) (t : Fin cfg0.N) : FVec Ideal S1x1024 .f32 := iblk m c 2 t
abbrev blk3 (c : Dev nD) (t : Fin cfg0.N) : FVec Ideal S1x1024 .f32 := iblk m c 3 t

/-- The scale vector as the region finds it: the launched vector laid out as a row. -/
theorem V_scale (c : Dev nD) :
    (V m c main_v0 : S1x1024.Idx → EReal) = shapeCast S1x1024 (gArr m c) shapeCasts_S1024_S1x1024 := by
  dsimp only [Gen.V, Gen.hostOps0]; after_results; rfl

/-- The shift vector as the region finds it. -/
theorem V_shift (c : Dev nD) :
    (V m c main_v1 : S1x1024.Idx → EReal) = shapeCast S1x1024 (bArr m c) shapeCasts_S1024_S1x1024 := by
  dsimp only [Gen.V, Gen.hostOps0]; after_results; rfl

/-- A `[1024]` vector laid out as a `[1, 1024]` row reads, at `(0, e)`, its entry `e`. -/
theorem row_apply (v : FVec Ideal S1024 .f32) (h : S1024.ShapeCasts S1x1024) (e : Fin 1024) :
    shapeCast S1x1024 v h (ix2 (0 : Fin 1) e) = v (ix1 e) :=
  shapeCast_apply v h (ix2 (0 : Fin 1) e) (ix1 e) (by
    rw [Shape.rowMajor_val_one, Shape.rowMajor_val_two]
    show e.val = 0 * 1024 + e.val
    omega)

/-- The printed index maps, decided over the four points: the activations' and the result's blocks are batch `b(t)`,
    rows and columns from zero; the other three windows always stage block zero. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 4 ∧ win0_4.index t (1 : Fin 3) = 0 ∧ win0_4.index t (2 : Fin 3) = 0 :=
  (by decide +kernel : ∀ t : Fin grid0.N, _)

/-- Every batch entry is some point's block. -/
theorem idx_onto : ∀ q : Fin 4, ∃ t : Fin cfg0.N, win0_4.index t = ![q.val, 0, 0] :=
  (by decide +kernel : ∀ q : Fin 4, ∃ t : Fin grid0.N, win0_4.index t = ![q.val, 0, 0])

/-- The kernel's form over the launched arrays of core `c`. -/
abbrev kerArr (c : Dev nD) : FVec Ideal S4x2048x1024 .f32 :=
  Cert.LayerNorm.kerOut (xArr m c) (pArr m c) (gArr m c) (bArr m c)

/-- The activations' block at point `t` is batch `b(t)`. -/
theorem blk0_apply (c : Dev nD) (t : Fin cfg0.N) (b : Fin 4) (hb : b.val = win0_4.index t (0 : Fin 3))
    (s : Fin 2048) (e : Fin 1024) : blk0 m c t (ix3 (0 : Fin 1) s e) = xArr m c (ix3 b s e) := by
  obtain ⟨e0, e1, e2, -⟩ := idx_facts t
  show V m c main_arg0 (((cfg0.win 0).blk t).view.emb (ix3 (0 : Fin 1) s e)) = _
  rw [V_main_arg0]
  refine congrArg (xArr m c) ?_
  funext a; apply Fin.ext
  match a with
  | ⟨0, _⟩ => show win0_0.index t (0 : Fin 3) * 1 + 1 * 0 = b.val; omega
  | ⟨1, _⟩ => show win0_0.index t (1 : Fin 3) * 2048 + 1 * s.val = s.val; omega
  | ⟨2, _⟩ => show win0_0.index t (2 : Fin 3) * 1024 + 1 * e.val = e.val; omega

/-- The position block at every point is the whole table. -/
theorem blk1_apply (c : Dev nD) (t : Fin cfg0.N) (s : Fin 2048) (e : Fin 1024) :
    blk1 m c t (ix2 s e) = pArr m c (ix2 s e) := by
  obtain ⟨-, -, -, e3, e4, -⟩ := idx_facts t
  show V m c main_arg1 (((cfg0.win 1).blk t).view.emb (ix2 s e)) = _
  rw [V_main_arg1]
  refine congrArg (pArr m c) ?_
  funext a; apply Fin.ext
  match a with
  | ⟨0, _⟩ => show win0_1.index t (0 : Fin 2) * 2048 + 1 * s.val = s.val; omega
  | ⟨1, _⟩ => show win0_1.index t (1 : Fin 2) * 1024 + 1 * e.val = e.val; omega

/-- The scale block at every point is the scale vector as a row. -/
theorem blk2_apply (c : Dev nD) (t : Fin cfg0.N) (e : Fin 1024) :
    blk2 m c t (ix2 (0 : Fin 1) e) = gArr m c (ix1 e) := by
  obtain ⟨-, -, -, -, -, e5, e6, -⟩ := idx_facts t
  show V m c main_v0 (((cfg0.win 2).blk t).view.emb (ix2 (0 : Fin 1) e)) = _
  rw [V_scale, ← row_apply (gArr m c) shapeCasts_S1024_S1x1024 e]
  refine congrArg (shapeCast S1x1024 (gArr m c) shapeCasts_S1024_S1x1024) ?_
  funext a; apply Fin.ext
  match a with
  | ⟨0, _⟩ => show win0_2.index t (0 : Fin 2) * 1 + 1 * 0 = 0; omega
  | ⟨1, _⟩ => show win0_2.index t (1 : Fin 2) * 1024 + 1 * e.val = e.val; omega

/-- The shift block at every point is the shift vector as a row. -/
theorem blk3_apply (c : Dev nD) (t : Fin cfg0.N) (e : Fin 1024) :
    blk3 m c t (ix2 (0 : Fin 1) e) = bArr m c (ix1 e) := by
  obtain ⟨-, -, -, -, -, -, -, e7, e8, -⟩ := idx_facts t
  show V m c main_v1 (((cfg0.win 3).blk t).view.emb (ix2 (0 : Fin 1) e)) = _
  rw [V_shift, ← row_apply (bArr m c) shapeCasts_S1024_S1x1024 e]
  refine congrArg (shapeCast S1x1024 (bArr m c) shapeCasts_S1024_S1x1024) ?_
  funext a; apply Fin.ext
  match a with
  | ⟨0, _⟩ => show win0_3.index t (0 : Fin 2) * 1 + 1 * 0 = 0; omega
  | ⟨1, _⟩ => show win0_3.index t (1 : Fin 2) * 1024 + 1 * e.val = e.val; omega

/-- WHAT POINT `t` WRITES BACK is block `t` of the kernel's form of the launched arrays. -/
theorem flushed_eq (c : Dev nD) (t : Fin cfg0.N) :
    (dats m 0 c).flushed 4 t = ((cfg0.win 4).blk t).view.read (Elt Ideal) (kerArr m c) := by
  obtain ⟨-, -, -, -, -, -, -, -, -, e9, e10, e11⟩ := idx_facts t
  show (cfg0.win 4).cut (grid0.coords t) ((dats m 0 c).after 4 t) = _
  rw [after0_4]
  unfold out0_4
  simp only [View.ld_unit_zero (S := S1x2048x1024) hz3, View.ld_unit_zero (S := S2048x1024) hz2,
    View.ld_unit_zero (S := S1x1024) hz2]
  funext j
  refine Eq.trans (b := Value.E4 (F := Ideal) (blk0 m c t) (blk1 m c t) (blk2 m c t) (blk3 m c t) j) ?_ ?_
  · exact Value.canon4_eq (F := Ideal) (blk0 m c t) (blk1 m c t) (blk2 m c t) (blk3 m c t) j
  show Value.E4 (F := Ideal) (blk0 m c t) (blk1 m c t) (blk2 m c t) (blk3 m c t) j
    = kerArr m c (((cfg0.win 4).blk t).view.emb j)
  have hj0 : (j 0).val < 1 := (j 0).isLt
  have hj1 : (j 1).val < 2048 := (j 1).isLt
  have hj2 : (j 2).val < 1024 := (j 2).isLt
  have hemb : ((cfg0.win 4).blk t).view.emb j
      = ix3 (⟨win0_4.index t (0 : Fin 3), e9⟩ : Fin 4) (⟨(j 1).val, hj1⟩ : Fin 2048) (⟨(j 2).val, hj2⟩ : Fin 1024) := by
    funext a; apply Fin.ext
    match a with
    | ⟨0, _⟩ => show win0_4.index t (0 : Fin 3) * 1 + 1 * (j 0).val = win0_4.index t (0 : Fin 3); omega
    | ⟨1, _⟩ => show win0_4.index t (1 : Fin 3) * 2048 + 1 * (j 1).val = (j 1).val; omega
    | ⟨2, _⟩ => show win0_4.index t (2 : Fin 3) * 1024 + 1 * (j 2).val = (j 2).val; omega
  have hjx : j = ix3 (⟨(j 0).val, hj0⟩ : Fin 1) (⟨(j 1).val, hj1⟩ : Fin 2048) (⟨(j 2).val, hj2⟩ : Fin 1024) := by
    funext a; apply Fin.ext
    match a with
    | ⟨0, _⟩ => rfl
    | ⟨1, _⟩ => rfl
    | ⟨2, _⟩ => rfl
  rw [hemb]
  refine (congrArg (Value.E4 (F := Ideal) (blk0 m c t) (blk1 m c t) (blk2 m c t) (blk3 m c t)) hjx).trans ?_
  show _ = Cert.LayerNorm.kerAt (xArr m c) (pArr m c) (gArr m c) (bArr m c)
    (⟨win0_4.index t (0 : Fin 3), e9⟩ : Fin 4) (⟨(j 1).val, hj1⟩ : Fin 2048) (⟨(j 2).val, hj2⟩ : Fin 1024)
  exact Cert.KernelIdeal.KBlock.E4_apply (blk0 m c t) (blk1 m c t) (blk2 m c t) (blk3 m c t)
    (xArr m c) (pArr m c) (gArr m c) (bArr m c) ⟨win0_4.index t (0 : Fin 3), e9⟩
    (fun s e => blk0_apply m c t ⟨win0_4.index t (0 : Fin 3), e9⟩ rfl s e) (fun s e => blk1_apply m c t s e)
    (fun e => blk2_apply m c t e) (fun e => blk3_apply m c t e) _ _ _

/-- An index of the result array is in point `t`'s block iff each coordinate is in the block's range on its axis. -/
theorem mem_blk (t : Fin cfg0.N) (i : S4x2048x1024.Idx) :
    i ∈ ((cfg0.win 4).blk t).view.set ↔ ∀ a : Fin 3, win0_4.index t a * S1x2048x1024.size a ≤ (i a).val
      ∧ (i a).val < win0_4.index t a * S1x2048x1024.size a + S1x2048x1024.size a := by
  show i ∈ ((View.whole main_v2).slice (win0_4.rect t)).set ↔ _
  rw [View.set_slice_whole, Rect.mem_set_unit]
  exact Iff.rfl

/-- The four blocks cover the result array: index `(b, s, e)` is in the block of the point that stages batch `b`. -/
theorem covered (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 1024 ≤ (i 2).val ∧ (i 2).val < win0_4.index t (2 : Fin 3) * 1024 + 1024; omega

/-- THE RESULT ARRAY after the run is the kernel's form of the launched arrays. -/
theorem final (c : Dev nD) : (dats m 0 c).arrAt 4 cfg0.N = kerArr m c :=
  (dats m 0 c).arrAt_eq_of_cover 4 (kerArr m c) (fun t _ => flushed_eq m c t) covered

/-- The run, read: the result array at the kernel's form of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v2)
          = Cert.LayerNorm.kerOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (Value.run_blocks m ρ)

end Cert.KernelIdeal.KValue

end
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.RefRun.lean ====
/-
  The reference program's run, as one straight line.

  The reference computes the position rows by an outlined row-take (which itself calls an outlined select), adds them
  to the activations and normalizes each row. Inlining the two calls at their sites, the whole program is a list of
  fifty-six tensor operations, each writing a buffer of its own: the position iota; the take's twenty-three operations
  (the wrap of negative indices, the two range tests and their conjunction reduced along the unit axis, the row
  gather, and the select against the fill value); then the two layout broadcasts of the gathered table, the sum with
  the activations, and the normalization (row sum, mean, deviations, their squares, row sum, variance, the root of
  the variance plus epsilon, the quotient, the scale and the shift). Every weakly fair execution of the program
  terminates, and each buffer then holds the fold of these operations over the launch contents.
-/
import proofs.«171602_g7713761264236_cont_9to1c4b_83_7_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The program's fifty-six operations in order, the two calls unfolded at their sites: the iota, the row-take's
    twenty-three (its seventh is the inner select), and the thirty-two of the sum and the normalization. -/
abbrev ops : List (HloOp τ sig (Elt F)) :=
  [ nullary main_v0 (iotaInDim S2048 32 0),
    TRef.nullary main_call0.c (constantI S_ 32 0#32),
    TRef.unary main_call0.c main_call0.v0 (broadcastInDim S2048 ![] bcast_S_S2048),
    TRef.binary (.of main_v0) main_call0.v0 main_call0.v1 (cmpi .slt),
    TRef.nullary main_call0.c_0 (constantI S_ 32 2048#32),
    TRef.unary main_call0.c_0 main_call0.v2 (broadcastInDim S2048 ![] bcast_S_S2048),
    TRef.binary (.of main_v0) main_call0.v2 main_call0.v3 addi,
    TRef.ternary main_call0.v1 main_call0.v3 (.of main_v0) main_call0.call0.v0 select,
    TRef.unary main_call0.call0.v0 main_call0.v5 (broadcastInDim S2048x1 ![0] bcast_S2048_S2048x1_0),
    TRef.nullary main_call0.c_1 (constantI S1 32 2047#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg1) main_call0.v5 main_call0.v13 (fun x i => Host.gather gather_S2048x1024_S2048x1_S2048x1024_1_0_n_n_0_1_11024 x i),
    TRef.unary main_call0.v12 main_call0.v14 (broadcastInDim S2048x1024 ![0] bcast_S2048_S2048x1024_0),
    TRef.nullary main_call0.cst (constant S_ .f32 0x7FC00000#32),
    TRef.unary main_call0.cst main_call0.v15 (broadcastInDim S2048x1024 ![] bcast_S_S2048x1024),
    TRef.ternary main_call0.v14 main_call0.v13 main_call0.v15 main_call0.v16 select,
    unary main_v1 main_v2 (broadcastInDim S1x2048x1024 ![1, 2] bcast_S2048x1024_S1x2048x1024_1_2 : (⟨S2048x1024, .f32⟩ : BufTy).Contents (Elt F) → (⟨S1x2048x1024, .f32⟩ : BufTy).Contents (Elt F)),
    unary main_v2 main_v3 (broadcastInDim S4x2048x1024 ![0, 1, 2] bcast_S1x2048x1024_S4x2048x1024_0_1_2 : (⟨S1x2048x1024, .f32⟩ : BufTy).Contents (Elt F) → (⟨S4x2048x1024, .f32⟩ : BufTy).Contents (Elt F)),
    binary main_arg0 main_v3 main_v4 (addf : (⟨S4x2048x1024, .f32⟩ : BufTy).Contents (Elt F) → (⟨S4x2048x1024, .f32⟩ : BufTy).Contents (Elt F) → (⟨S4x2048x1024, .f32⟩ : BufTy).Contents (Elt F)),
    nullary main_cst (constant S_ .f32 0x00000000#32),
    binary main_v4 main_cst main_v5 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v5 main_v6 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x44800000#32),
    unary main_cst_0 main_v7 (broadcastInDim S4x2048x1 ![] bcast_S_S4x2048x1 : (⟨S_, .f32⟩ : BufTy).Contents (Elt F) → (⟨S4x2048x1, .f32⟩ : BufTy).Contents (Elt F)),
    binary main_v6 main_v7 main_v8 (Host.divf : (⟨S4x2048x1, .f32⟩ : BufTy).Contents (Elt F) → (⟨S4x2048x1, .f32⟩ : BufTy).Contents (Elt F) → (⟨S4x2048x1, .f32⟩ : BufTy).Contents (Elt F)),
    unary main_v8 main_v9 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v4 main_v9 main_v10 (subf : (⟨S4x2048x1024, .f32⟩ : BufTy).Contents (Elt F) → (⟨S4x2048x1024, .f32⟩ : BufTy).Contents (Elt F) → (⟨S4x2048x1024, .f32⟩ : BufTy).Contents (Elt F)),
    binary main_v10 main_v10 main_v11 (mulf : (⟨S4x2048x1024, .f32⟩ : BufTy).Contents (Elt F) → (⟨S4x2048x1024, .f32⟩ : BufTy).Contents (Elt F) → (⟨S4x2048x1024, .f32⟩ : BufTy).Contents (Elt F)),
    nullary main_cst_1 (constant S_ .f32 0x00000000#32),
    binary main_v11 main_cst_1 main_v12 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v12 main_v13 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_2 (constant S_ .f32 0x44800000#32),
    unary main_cst_2 main_v14 (broadcastInDim S4x2048x1 ![] bcast_S_S4x2048x1 : (⟨S_, .f32⟩ : BufTy).Contents (Elt F) → (⟨S4x2048x1, .f32⟩ : BufTy).Contents (Elt F)),
    binary main_v13 main_v14 main_v15 (Host.divf : (⟨S4x2048x1, .f32⟩ : BufTy).Contents (Elt F) → (⟨S4x2048x1, .f32⟩ : BufTy).Contents (Elt F) → (⟨S4x2048x1, .f32⟩ : BufTy).Contents (Elt F)),
    unary main_v8 main_v16 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v4 main_v16 main_v17 (subf : (⟨S4x2048x1024, .f32⟩ : BufTy).Contents (Elt F) → (⟨S4x2048x1024, .f32⟩ : BufTy).Contents (Elt F) → (⟨S4x2048x1024, .f32⟩ : BufTy).Contents (Elt F)),
    nullary main_cst_3 (constant S_ .f32 0x3727C5AC#32),
    unary main_cst_3 main_v18 (broadcastInDim S4x2048x1 ![] bcast_S_S4x2048x1 : (⟨S_, .f32⟩ : BufTy).Contents (Elt F) → (⟨S4x2048x1, .f32⟩ : BufTy).Contents (Elt F)),
    binary main_v15 main_v18 main_v19 (addf : (⟨S4x2048x1, .f32⟩ : BufTy).Contents (Elt F) → (⟨S4x2048x1, .f32⟩ : BufTy).Contents (Elt F) → (⟨S4x2048x1, .f32⟩ : BufTy).Contents (Elt F)),
    unary main_v19 main_v20 (Host.sqrt : (⟨S4x2048x1, .f32⟩ : BufTy).Contents (Elt F) → (⟨S4x2048x1, .f32⟩ : BufTy).Contents (Elt F)),
    unary main_v20 main_v21 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v17 main_v21 main_v22 (Host.divf : (⟨S4x2048x1024, .f32⟩ : BufTy).Contents (Elt F) → (⟨S4x2048x1024, .f32⟩ : BufTy).Contents (Elt F) → (⟨S4x2048x1024, .f32⟩ : BufTy).Contents (Elt F)),
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v22 main_v24 main_v25 (mulf : (⟨S4x2048x1024, .f32⟩ : BufTy).Contents (Elt F) → (⟨S4x2048x1024, .f32⟩ : BufTy).Contents (Elt F) → (⟨S4x2048x1024, .f32⟩ : BufTy).Contents (Elt F)),
    unary main_arg3 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v25 main_v27 main_v28 (addf : (⟨S4x2048x1024, .f32⟩ : BufTy).Contents (Elt F) → (⟨S4x2048x1024, .f32⟩ : BufTy).Contents (Elt F) → (⟨S4x2048x1024, .f32⟩ : BufTy).Contents (Elt F)) ]

-- fifty-six binds to re-associate: the rewriting recurses once per statement
set_option maxRecDepth 4096 in
/-- The program is that straight line: with the two function bodies unfolded at their calls and sequencing
    re-associated, both sides are one chain of the same steps. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- For any float values, from any memory with zero counters: every weakly fair execution of the program terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RRun

end
-- ==== Proof.RefValue.lean ====
/-
  The reference program's result, as a function of its four arguments, and that function read index by index.

  The run leaves every buffer at the fold of the program's operations over the launch contents. Read at the result
  buffer, that fold is one term of the arguments, written here in named stages: the wrapped position column, the row
  take of the position table, the embedded array (activations plus position rows), the row mean (row sum over 1024),
  the deviations, their mean square, its root with epsilon added, and the scaled and shifted quotient.

  At the ideal values each stage is read at an index. The position indices are 0 … 2047: none is negative, so the
  wrap leaves each as it is; each lies in [0, 2047], so the take's range mask is all ones and the fill value is never
  selected; and the gather's clamp of a start index already in range is that index, so row s of the take is row s of
  the table. The layout broadcasts read the operand at the projected index, the row sums are sums over the last
  coordinate, and the pointwise operations are the extended reals'. What results is the specification's reference
  form of the layer normalization.
-/
import proofs.«171602_g7713761264236_cont_9to1c4b_83_7_alg».proof.Proof.Gen.ReferenceIdeal
import Idealize.ShloMosaic.Lib.StableHlo.Run
import proofs.«171602_g7713761264236_cont_9to1c4b_83_7_alg».proof.Proof.Spec
import proofs.«171602_g7713761264236_cont_9to1c4b_83_7_alg».proof.Proof.LibTakeFill
import proofs.«171602_g7713761264236_cont_9to1c4b_83_7_alg».proof.Proof.RefRun
import Idealize.ShloMosaic.Lib.Affine

noncomputable section

namespace Cert.ReferenceIdeal.RValue

open Cert.ReferenceIdeal Cert.ReferenceIdeal.Gen Idealize.ShloMosaic Idealize.ShloMosaic.TcCoe Idealize.SL.Sem Idealize.ShloMosaic.StableHlo
open Idealize.ShloMosaic.ValueIdx

/-! ## The result as a term of the arguments, in stages -/

section Stages

variable {F : FTy → Type} [FloatOps F]

/-- The position indices 0 … 2047 after the wrap of negative words (`i < 0 ↦ i + 2048`), as a column. -/
def idxCol : IVec S2048x1 32 :=
  broadcastInDim S2048x1 ![0] bcast_S2048_S2048x1_0
    (select (cmpi .slt (iotaInDim S2048 32 0) (broadcastInDim S2048 ![] bcast_S_S2048 (constantI S_ 32 0#32)))
      (addi (iotaInDim S2048 32 0) (broadcastInDim S2048 ![] bcast_S_S2048 (constantI S_ 32 2048#32)))
      (iotaInDim S2048 32 0))

/-- The row take of the position table: the gathered rows where the wrapped index passes the two range tests, the
    fill value elsewhere. -/
def posEmb (p : FVec F S2048x1024 .f32) : FVec F S2048x1024 .f32 :=
  select
    (broadcastInDim S2048x1024 ![0] bcast_S2048_S2048x1024_0
      (Host.reduce IntOp.andi
        (andi (cmpi .sge idxCol (broadcastInDim S2048x1 ![] bcast_S_S2048x1 (constantI S_ 32 0#32)))
          (cmpi .sle idxCol
            (broadcastInDim S2048x1 ![0, 1] bcast_S1x1_S2048x1_0_1
              (broadcastInDim S1x1 ![1] bcast_S1_S1x1_1 (constantI S1 32 2047#32)))))
        (constantI S_ 1 1#1) reducesTo_S2048x1_S2048_d1 h_S_))
    (Host.gather gather_S2048x1024_S2048x1_S2048x1024_1_0_n_n_0_1_11024 p idxCol)
    (broadcastInDim S2048x1024 ![] bcast_S_S2048x1024 (constant S_ .f32 0x7FC00000#32))

/-- The embedded array: the activations plus the position rows, laid over the batch axis. -/
def embArr (x : FVec F S4x2048x1024 .f32) (p : FVec F S2048x1024 .f32) : FVec F S4x2048x1024 .f32 :=
  addf x
    (broadcastInDim S4x2048x1024 ![0, 1, 2] bcast_S1x2048x1024_S4x2048x1024_0_1_2
      (broadcastInDim S1x2048x1024 ![1, 2] bcast_S2048x1024_S1x2048x1024_1_2 (posEmb p)))

/-- The mean of each row, kept as a column: the row sum from zero, divided by the word 1024. -/
def rowMean (y : FVec F S4x2048x1024 .f32) : FVec F S4x2048x1 .f32 :=
  Host.divf
    (broadcastInDim S4x2048x1 ![0, 1] bcast_S4x2048_S4x2048x1_0_1
      (Host.reduceAdd y (constant S_ .f32 0x00000000#32) reducesTo_S4x2048x1024_S4x2048_d2 h_S_))
    (broadcastInDim S4x2048x1 ![] bcast_S_S4x2048x1 (constant S_ .f32 0x44800000#32))

/-- The deviations from the row mean. -/
def devArr (x : FVec F S4x2048x1024 .f32) (p : FVec F S2048x1024 .f32) : FVec F S4x2048x1024 .f32 :=
  subf (embArr x p)
    (broadcastInDim S4x2048x1024 ![0, 1, 2] bcast_S4x2048x1_S4x2048x1024_0_1_2 (rowMean (embArr x p)))

/-- The root of the variance (the mean squared deviation) plus epsilon. -/
def sdArr (x : FVec F S4x2048x1024 .f32) (p : FVec F S2048x1024 .f32) : FVec F S4x2048x1 .f32 :=
  Host.sqrt
    (addf (rowMean (mulf (devArr x p) (devArr x p)))
      (broadcastInDim S4x2048x1 ![] bcast_S_S4x2048x1 (constant S_ .f32 0x3727C5AC#32)))

/-- A channel vector laid over the batch and position axes. -/
def chan (g : FVec F S1024 .f32) : FVec F S4x2048x1024 .f32 :=
  broadcastInDim S4x2048x1024 ![0, 1, 2] bcast_S1x1x1024_S4x2048x1024_0_1_2
    (broadcastInDim S1x1x1024 ![2] bcast_S1024_S1x1x1024_2 g)

/-- The program's result: the deviations over the root, scaled and shifted channel by channel. -/
def refTerm (x : FVec F S4x2048x1024 .f32) (p : FVec F S2048x1024 .f32) (g be : FVec F S1024 .f32) :
    FVec F S4x2048x1024 .f32 :=
  addf
    (mulf
      (Host.divf (devArr x p)
        (broadcastInDim S4x2048x1024 ![0, 1, 2] bcast_S4x2048x1_S4x2048x1024_0_1_2 (sdArr x p)))
      (chan g))
    (chan be)

/-! ## The fold at the result buffer is that term -/

attribute [local irreducible] Host.reduce Host.gather Host.reduceAdd in
set_option maxRecDepth 8192 in
set_option maxHeartbeats 800000 in
/-- The fold of the operations, read at the result buffer, is the staged term of the four arguments: each operation's
    result is its function of the buffers it reads, a buffer no later operation writes keeps its value. -/
theorem result_eq (V : Valuation τ sig (Elt F)) :
    after RRun.ops V (main_v28 : DevRef τ sig)
      = refTerm (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after RRun.ops V (main_arg0 : DevRef τ sig) = V (main_arg0 : DevRef τ sig) := by
  after_results_simp
theorem arg1_eq (V : Valuation τ sig (Elt F)) :
    after RRun.ops V (main_arg1 : DevRef τ sig) = V (main_arg1 : DevRef τ sig) := by
  after_results_simp
theorem arg2_eq (V : Valuation τ sig (Elt F)) :
    after RRun.ops V (main_arg2 : DevRef τ sig) = V (main_arg2 : DevRef τ sig) := by
  after_results_simp
theorem arg3_eq (V : Valuation τ sig (Elt F)) :
    after RRun.ops V (main_arg3 : DevRef τ sig) = V (main_arg3 : DevRef τ sig) := by
  after_results_simp

end Stages

/-! ## The stages read at an index, at the ideal values -/

section AtIdeal

/-- A list that is one element long has that element at every valid position. -/
theorem getElem_of_eq_singleton {α : Type} (l : List α) (a : α) (h : l = [a]) (k : Nat) (hk : k < l.length) :
    l[k] = a := by
  subst h
  have : k = 0 := by simpa using hk
  subst this
  rfl

/-- A ROW GATHER read at `(r, c)`: the operand has its first axis collapsed and start-indexed, its second axis the
    one offset axis, and the start indices are a column. The result's row `r`, column `c` is the operand at the row
    the column's entry `r` names — read signed and clamped into `[0, N − 1]` — and at column `c`. -/
theorem gather_rows_apply {α : Type} {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) :
    Host.gather d x idx (ix2 r c)
      = x (ix2 ⟨min (idx (ix2 r (0 : Fin 1))).toInt.toNat (N - 1), by omega⟩ c) := by
  unfold Host.gather
  congr 1
  funext a
  have hb : ∀ a : Fin 2, a ∉ d.operandBatchingDims := fun a => by rw [hob]; exact List.not_mem_nil
  have hbd : d.batchDims = [0] := by
    show Shape.kept _ d.offsetDims = _
    rw [hoff]; rfl
  have hsk : d.sKept = [1] := by
    show Shape.kept _ (d.collapsedSliceDims ++ d.operandBatchingDims) = _
    rw [hcoll, hob]; rfl
  match a with
  | ⟨0, _⟩ =>
    apply Fin.ext
    have hk : (0 : Fin 2) ∉ d.sKept := by rw [hsk]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0
        = min (idx (ix2 r (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      -- the batch coordinate: the result's axis 0 is its one batch axis, reading the start indices' axis 0
      unfold GatherDims.siIdx
      rw [dif_neg (by rw [hivd]; simp)]
      unfold GatherDims.siCoord
      apply Fin.ext
      simp only [Fin.val_cast]
      rw [getElem_of_eq_singleton _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [hsk]; simp
    have hm : (1 : Fin 2) ∉ d.startIndexMap := by rw [hsim]; simp
    show d.start (ix2 r c) idx 1 + d.batchCoord (ix2 r c) 1 + d.offCoord (ix2 r c) 1 = c.val
    rw [GatherDims.batchCoord_eq_zero _ _ _ (hb 1), Nat.add_zero]
    unfold GatherDims.start GatherDims.offCoord
    rw [dif_neg hm, dif_pos hk, Nat.zero_add, getElem_of_eq_singleton _ _ hoff]
    rfl

/-- The word of a position reads, signed, as the position. -/
theorem toInt_pos (s : Fin 2048) : (BitVec.ofNat 32 s.val).toInt = (s.val : ℤ) :=
  Cert.LibTakeFill.toInt_ofNat_small s.val (by have := s.isLt; omega)

/-- The wrapped position column at row `s` is the word of `s`: a position is not negative, so the wrap keeps it. -/
theorem idxCol_apply (s : Fin 2048) (u : Fin 1) : idxCol (ix2 s u) = BitVec.ofNat 32 s.val := by
  unfold idxCol
  rw [broadcastInDim_apply (![0] : Fin 1 → Fin 2) bcast_S2048_S2048x1_0 _ (ix2 s u) (ix1 s)
    (fun a => match a with | ⟨0, _⟩ => rfl)]
  have hc : ¬ IntOp.cmpi .slt (BitVec.ofNat 32 s.val) 0#32 = 1#1 := fun h => by
    have := IntOp.cmpi_slt.mp h
    rw [toInt_pos, BitVec.toInt_zero] at this
    omega
  exact if_neg hc

/-- Every position word lies in `[−2048, 2048)`, so the take's range mask is all ones and the take is the plain row
    gather at the wrapped column. -/
theorem posEmb_eq {F : FTy → Type} [FloatOps F] (p : FVec F S2048x1024 .f32) :
    posEmb p = Host.gather gather_S2048x1024_S2048x1_S2048x1024_1_0_n_n_0_1_11024 p idxCol := by
  unfold posEmb idxCol
  exact Cert.LibTakeFill.take_fill_eq 2048 2048#32 2047#32 bcast_S_S2048 bcast_S2048_S2048x1_0 bcast_S_S2048x1
    bcast_S1_S1x1_1 bcast_S1x1_S2048x1_0_1 reducesTo_S2048x1_S2048_d1 h_S_ bcast_S2048_S2048x1024_0
    (by decide) (by decide) rfl rfl (iotaInDim S2048 32 0)
    (fun e => by
      have hlt : (e 0).val < 2048 := (e 0).isLt
      have h : (iotaInDim S2048 32 0 e).toInt = ((e 0).val : ℤ) :=
        Cert.LibTakeFill.toInt_ofNat_small _ (by omega)
      rw [h]
      constructor <;> omega) _ _

/-- The take at `(s, e)` is the table's entry `(s, e)`: the start index of row `s` is `s`, already inside the table,
    so the clamp keeps it. -/
theorem posEmb_apply (p : Cert.LayerNorm.SP.Idx → EReal) (s : Fin 2048) (e : Fin 1024) :
    posEmb (F := Ideal) p (ix2 s e) = p (ix2 s e) := by
  rw [posEmb_eq, gather_rows_apply (by decide) _ rfl rfl rfl rfl rfl]
  refine congrArg p ?_
  funext a
  match a with
  | ⟨0, _⟩ =>
    refine Fin.ext ?_
    show min (idxCol (ix2 s (0 : Fin 1))).toInt.toNat (2048 - 1) = s.val
    rw [idxCol_apply, toInt_pos, Int.toNat_natCast]
    have := s.isLt
    omega
  | ⟨1, _⟩ => rfl

open Cert.LayerNorm in
/-- The embedded array at `(b, s, e)`: the activation plus the position table's entry `(s, e)`. -/
theorem embArr_apply (x : Cert.LayerNorm.SX.Idx → EReal) (p : Cert.LayerNorm.SP.Idx → EReal)
    (b : Fin 4) (s : Fin 2048) (e : Fin 1024) :
    embArr (F := Ideal) x p (ix3 b s e) = Cert.LayerNorm.emb x p b s e := by
  unfold embArr Cert.LayerNorm.emb
  rw [addf_apply,
    broadcastInDim_apply (![0, 1, 2] : Fin 3 → Fin 3) bcast_S1x2048x1024_S4x2048x1024_0_1_2 _ (ix3 b s e)
      (ix3 (0 : Fin 1) s e) (fun a => match a with | ⟨0, _⟩ => rfl | ⟨1, _⟩ => rfl | ⟨2, _⟩ => rfl),
    broadcastInDim_apply (![1, 2] : Fin 2 → Fin 3) bcast_S2048x1024_S1x2048x1024_1_2 _ (ix3 (0 : Fin 1) s e)
      (ix2 s e) (fun a => match a with | ⟨0, _⟩ => rfl | ⟨1, _⟩ => rfl),
    posEmb_apply]

/-- The row index `(b, s)` with the coordinate `k` put back on the summed last axis. -/
theorem lift_row (hR : S4x2048x1024.Reduces [2] S4x2048) (b : Fin 4) (s : Fin 2048) (k : Fin 1024) :
    hR.lift (ix2 b s) k = ix3 b s k := by
  funext a
  match a with
  | ⟨0, _⟩ => exact Fin.ext rfl
  | ⟨1, _⟩ => exact Fin.ext rfl
  | ⟨2, _⟩ => exact Fin.ext rfl

/-- The row mean at `(b, s)`, whatever the unit coordinate: zero plus the sum over the row, divided by the word 1024. -/
theorem rowMean_apply (y : Cert.LayerNorm.SX.Idx → EReal) (b : Fin 4) (s : Fin 2048) (u : Fin 1) :
    rowMean (F := Ideal) y (ix3 b s u)
      = Ideal.div (Ideal.ofBits .f32 0x00000000#32 + ∑ k : Fin 1024, y (ix3 b s k)) (Ideal.ofBits .f32 0x44800000#32) := by
  have hR : S4x2048x1024.Reduces [2] S4x2048 := by decide
  unfold rowMean
  show Ideal.div
      (broadcastInDim S4x2048x1 ![0, 1] bcast_S4x2048_S4x2048x1_0_1
        (Ideal.hostReduceAdd reducesTo_S4x2048x1024_S4x2048_d2 y (Ideal.ofBits .f32 0x00000000#32)) (ix3 b s u))
      (Ideal.ofBits .f32 0x44800000#32) = _
  rw [broadcastInDim_apply (![0, 1] : Fin 2 → Fin 3) bcast_S4x2048_S4x2048x1_0_1 _ (ix3 b s u) (ix2 b s)
      (fun a => match a with | ⟨0, _⟩ => rfl | ⟨1, _⟩ => rfl),
    Ideal.hostReduceAdd_single reducesTo_S4x2048x1024_S4x2048_d2 hR]
  have hsum : ∑ k : Fin (S4x2048x1024.size 2), y (hR.lift (ix2 b s) k) = ∑ k : Fin 1024, y (ix3 b s k) :=
    Finset.sum_congr rfl fun k _ => congrArg y (lift_row hR b s k)
  rw [hsum]

/-- The deviation at `(b, s, e)`: the embedded entry less the row's mean. -/
theorem devArr_apply (x : Cert.LayerNorm.SX.Idx → EReal) (p : Cert.LayerNorm.SP.Idx → EReal)
    (b : Fin 4) (s : Fin 2048) (e : Fin 1024) :
    devArr (F := Ideal) x p (ix3 b s e) = Cert.LayerNorm.emb x p b s e - Cert.LayerNorm.meanR x p b s := by
  unfold devArr Cert.LayerNorm.meanR
  rw [subf_apply,
    broadcastInDim_apply (![0, 1, 2] : Fin 3 → Fin 3) bcast_S4x2048x1_S4x2048x1024_0_1_2 _ (ix3 b s e)
      (ix3 b s (0 : Fin 1)) (fun a => match a with | ⟨0, _⟩ => rfl | ⟨1, _⟩ => rfl | ⟨2, _⟩ => rfl),
    rowMean_apply, embArr_apply]
  simp only [embArr_apply]

/-- The root at `(b, s)`: the square root of the row's variance plus epsilon. -/
theorem sdArr_apply (x : Cert.LayerNorm.SX.Idx → EReal) (p : Cert.LayerNorm.SP.Idx → EReal)
    (b : Fin 4) (s : Fin 2048) (u : Fin 1) :
    sdArr (F := Ideal) x p (ix3 b s u)
      = Ideal.sqrt (Cert.LayerNorm.varR x p b s + Ideal.ofBits .f32 0x3727C5AC#32) := by
  unfold sdArr Cert.LayerNorm.varR
  show Ideal.sqrt (rowMean (F := Ideal) (mulf (devArr x p) (devArr x p)) (ix3 b s u) + Ideal.ofBits .f32 0x3727C5AC#32) = _
  rw [rowMean_apply]
  simp only [mulf_apply, devArr_apply]

/-- A channel vector laid over the other axes reads its entry of the channel. -/
theorem chan_apply (g : Cert.LayerNorm.SV.Idx → EReal) (b : Fin 4) (s : Fin 2048) (e : Fin 1024) :
    chan (F := Ideal) g (ix3 b s e) = g (ix1 e) := by
  unfold chan
  rw [broadcastInDim_apply (![0, 1, 2] : Fin 3 → Fin 3) bcast_S1x1x1024_S4x2048x1024_0_1_2 _ (ix3 b s e)
      (ix3 (0 : Fin 1) (0 : Fin 1) e) (fun a => match a with | ⟨0, _⟩ => rfl | ⟨1, _⟩ => rfl | ⟨2, _⟩ => rfl),
    broadcastInDim_apply (![2] : Fin 1 → Fin 3) bcast_S1024_S1x1x1024_2 _ (ix3 (0 : Fin 1) (0 : Fin 1) e)
      (ix1 e) (fun a => match a with | ⟨0, _⟩ => rfl)]

/-- THE RESULT AT AN INDEX is the specification's reference form. -/
theorem refTerm_apply (x : Cert.LayerNorm.SX.Idx → EReal) (p : Cert.LayerNorm.SP.Idx → EReal)
    (g be : Cert.LayerNorm.SV.Idx → EReal) (b : Fin 4) (s : Fin 2048) (e : Fin 1024) :
    refTerm (F := Ideal) x p g be (ix3 b s e) = Cert.LayerNorm.refAt x p g be b s e := by
  unfold refTerm Cert.LayerNorm.refAt
  show Ideal.div (devArr (F := Ideal) x p (ix3 b s e))
        (broadcastInDim S4x2048x1024 ![0, 1, 2] bcast_S4x2048x1_S4x2048x1024_0_1_2 (sdArr (F := Ideal) x p) (ix3 b s e))
      * chan (F := Ideal) g (ix3 b s e) + chan (F := Ideal) be (ix3 b s e) = _
  rw [broadcastInDim_apply (![0, 1, 2] : Fin 3 → Fin 3) bcast_S4x2048x1_S4x2048x1024_0_1_2 _ (ix3 b s e)
      (ix3 b s (0 : Fin 1)) (fun a => match a with | ⟨0, _⟩ => rfl | ⟨1, _⟩ => rfl | ⟨2, _⟩ => rfl),
    devArr_apply, sdArr_apply, chan_apply, chan_apply]

/-- So the result array is the specification's reference array. -/
theorem refTerm_eq_refOut (x : Cert.LayerNorm.SX.Idx → EReal) (p : Cert.LayerNorm.SP.Idx → EReal)
    (g be : Cert.LayerNorm.SV.Idx → EReal) :
    refTerm (F := Ideal) x p g be = Cert.LayerNorm.refOut x p g be := by
  funext i
  obtain ⟨b, s, e, rfl⟩ : ∃ (b : Fin 4) (s : Fin 2048) (e : Fin 1024), i = ix3 b s e := ⟨i 0, i 1, i 2, eq_ix3 i⟩
  rw [refTerm_apply, Cert.LayerNorm.refOut_ix3]

end AtIdeal

/-! ## The run -/

/-- At the ideal values, from any memory with zero counters: every weakly fair execution of the reference program
    terminates with the result buffer at the specification's reference array of the four arguments' launch contents,
    and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
          = Cert.LayerNorm.refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v28).trans ((result_eq _).trans (refTerm_eq_refOut _ _ _ _)),
        (h c main_arg0).trans (arg0_eq _), (h c main_arg1).trans (arg1_eq _),
        (h c main_arg2).trans (arg2_eq _), (h c main_arg3).trans (arg3_eq _)⟩)
    (RRun.run_main m ρ)

end Cert.ReferenceIdeal.RValue

end
-- ==== Proof.Algebra.lean ====
/-
  LayerNorm written two ways agrees on real data, entry by entry, on the extended reals.

  Fix a row `(b, s)` and write `a k` for the real number the embedded entry `x[b, s, k] + pos[s, k]` denotes.

  * The mean.  Dividing an extended real by the real `1024` is multiplying it by `1/1024`, and a leading zero drops
    out of a sum, so the reference's mean `(0 + Σₖ a k) / 1024` is the kernel's mean `(Σₖ a k) · (1/1024)`; call
    it `μ`.  This step needs no reality of the data.
  * The variance.  The reference's variance `(0 + Σₖ (a k − μ)²) / 1024` is `(Σₖ (a k − μ)²) · (1/1024)`, which the
    variance identity turns into `(Σₖ (a k)²) · (1/1024) − μ · μ`, the kernel's variance.  It is the image of the
    real number `w = (Σₖ (a k − μ)²) / 1024`, a mean of squares, so `w ≥ 0`.
  * The root.  The shared epsilon is a positive real `ε`, so both roots are taken at the one positive real
    `v = w + ε`.  There the reciprocal square root is `(√v)⁻¹`, the square root is `√v ≠ 0`, and dividing by
    `√v` is multiplying by `1/√v = (√v)⁻¹`.

  Hence both results are `((a e − μ) · (√v)⁻¹) · γ[e] + β[e]`.  The scale `γ` and the shift `β` are never touched:
  they may be any extended reals, infinite ones included, and enter both forms in the same place.
-/
import Mathlib.Analysis.SpecialFunctions.Pow.Real
import Mathlib.Algebra.BigOperators.Group.Finset.Basic
import Mathlib.Algebra.Order.BigOperators.Group.Finset
import Mathlib.Tactic.Linarith
import Mathlib.Tactic.NormNum
import proofs.«171602_g7713761264236_cont_9to1c4b_83_7_alg».proof.Proof.Spec

noncomputable section

namespace Cert.LayerNorm

open Idealize.ShloMosaic Idealize.ShloMosaic.ValueIdx

/-! ### The two roots at a positive real -/

/-- At a positive real the reciprocal square root is the reciprocal of the real square root. -/
theorem rsqrt_coe_pos {v : ℝ} (hv : 0 < v) :
    Ideal.rsqrt (v : EReal) = (((Real.sqrt v)⁻¹ : ℝ) : EReal) := by
  rw [Ideal.rsqrt_coe, if_neg (not_lt.mpr hv.le), if_neg hv.ne']

/-- At a nonnegative real the square root is the real square root. -/
theorem sqrt_coe_nonneg {v : ℝ} (hv : 0 ≤ v) :
    Ideal.sqrt (v : EReal) = ((Real.sqrt v : ℝ) : EReal) := by
  rw [Ideal.sqrt_coe, if_neg (not_lt.mpr hv)]

/-- Dividing by the square root of a positive real is multiplying by its reciprocal square root, whatever the
    dividend. -/
theorem div_sqrt_eq_mul_rsqrt {v : ℝ} (hv : 0 < v) (X : EReal) :
    Ideal.div X (Ideal.sqrt (v : EReal)) = X * Ideal.rsqrt (v : EReal) := by
  rw [rsqrt_coe_pos hv, sqrt_coe_nonneg hv.le, Ideal.div_coe (Real.sqrt_pos.mpr hv).ne', one_div]

/-! ### The mean -/

section Row

variable (x : SX.Idx → EReal) (p : SP.Idx → EReal) (b : Fin 4) (s : Fin 2048)

/-- The reference's mean is the kernel's mean: the leading zero drops, and dividing by `1024` is multiplying by
    `1/1024`.  No reality of the data is needed. -/
theorem meanR_eq_meanK : meanR x p b s = meanK x p b s := by
  unfold meanR meanK
  rw [Cert.Consts.ofBits_zero, Cert.Consts.ofBits_1024, Cert.Consts.ofBits_inv1024, zero_add,
    Ideal.div_coe (by norm_num : (1024 : ℝ) ≠ 0)]

variable (a : Fin 1024 → ℝ) (ha : ∀ k, emb x p b s k = ((a k : ℝ) : EReal))

include ha

/-- The kernel's mean over real data, as the sum of the images times `1/1024`. -/
theorem meanK_eq_sum : meanK x p b s = (∑ k, ((a k : ℝ) : EReal)) * ((1 / 1024 : ℝ) : EReal) := by
  unfold meanK
  rw [Cert.Consts.ofBits_inv1024, Finset.sum_congr rfl (fun k _ => ha k)]

/-- The kernel's mean over real data is the image of the real mean. -/
theorem meanK_coe : meanK x p b s = (((∑ k, a k) * (1 / 1024) : ℝ) : EReal) := by
  rw [meanK_eq_sum x p b s a ha, IdealReal.coe_sum, ← EReal.coe_mul]

/-! ### The variance -/

/-- The reference's variance over real data, with the division written as a product. -/
theorem varR_eq_sum :
    varR x p b s
      = (∑ k, (((a k : ℝ) : EReal) - meanK x p b s) * (((a k : ℝ) : EReal) - meanK x p b s))
          * ((1 / 1024 : ℝ) : EReal) := by
  unfold varR
  rw [meanR_eq_meanK, Cert.Consts.ofBits_zero, Cert.Consts.ofBits_1024, zero_add,
    Ideal.div_coe (by norm_num : (1024 : ℝ) ≠ 0),
    Finset.sum_congr rfl (fun k _ => by rw [ha k])]

/-- The variance identity: the reference's variance is the kernel's variance. -/
theorem varR_eq_varK : varR x p b s = ex2K x p b s - meanK x p b s * meanK x p b s := by
  have hcard : (Fintype.card (Fin 1024) : ℝ) = 1024 := by simp
  have hvar := Cert.Bridge.var_identity a (1024 : ℝ) (by norm_num) hcard
  rw [varR_eq_sum x p b s a ha]
  unfold ex2K
  rw [Cert.Consts.ofBits_inv1024,
    Finset.sum_congr rfl (fun k _ => by rw [ha k] : ∀ k ∈ (Finset.univ : Finset (Fin 1024)),
      emb x p b s k * emb x p b s k = ((a k : ℝ) : EReal) * ((a k : ℝ) : EReal)),
    meanK_eq_sum x p b s a ha]
  exact hvar

/-- The reference's variance over real data is the image of a nonnegative real: a mean of squares. -/
theorem varR_coe_nonneg : ∃ w : ℝ, 0 ≤ w ∧ varR x p b s = ((w : ℝ) : EReal) := by
  refine ⟨(∑ k, (a k - (∑ j, a j) * (1 / 1024)) * (a k - (∑ j, a j) * (1 / 1024))) * (1 / 1024), ?_, ?_⟩
  · exact mul_nonneg (Finset.sum_nonneg (fun k _ => mul_self_nonneg _)) (by norm_num)
  · rw [varR_eq_sum x p b s a ha, meanK_coe x p b s a ha,
      Finset.sum_congr rfl (fun k _ => by rw [← EReal.coe_sub, ← EReal.coe_mul] :
        ∀ k ∈ (Finset.univ : Finset (Fin 1024)),
          (((a k : ℝ) : EReal) - (((∑ j, a j) * (1 / 1024) : ℝ) : EReal))
              * (((a k : ℝ) : EReal) - (((∑ j, a j) * (1 / 1024) : ℝ) : EReal))
            = (((a k - (∑ j, a j) * (1 / 1024)) * (a k - (∑ j, a j) * (1 / 1024)) : ℝ) : EReal)),
      IdealReal.coe_sum, ← EReal.coe_mul]

end Row

/-! ### The two results -/

theorem kerAt_eq_refAt (x : SX.Idx → EReal) (p : SP.Idx → EReal) (g be : SV.Idx → EReal)
    (hx : ∀ i, ∃ r : ℝ, x i = (r : EReal)) (hp : ∀ i, ∃ r : ℝ, p i = (r : EReal))
    (b : Fin 4) (s : Fin 2048) (e : Fin 1024) :
    kerAt x p g be b s e = refAt x p g be b s e := by
  choose xr hxr using hx
  choose pr hpr using hp
  have ha : ∀ k, emb x p b s k = (((xr (ix3 b s k) + pr (ix2 s k)) : ℝ) : EReal) := fun k => by
    unfold emb
    rw [hxr, hpr, ← EReal.coe_add]
  obtain ⟨w, hw0, hw⟩ := varR_coe_nonneg x p b s _ ha
  obtain ⟨ε, hε0, hε⟩ := Cert.Consts.ofBits_eps_pos
  have hv : 0 < w + ε := by linarith
  unfold kerAt refAt
  rw [← varR_eq_varK x p b s _ ha, meanR_eq_meanK, hw, hε, ← EReal.coe_add, div_sqrt_eq_mul_rsqrt hv]

theorem kerOut_eq_refOut (x : SX.Idx → EReal) (p : SP.Idx → EReal) (g be : SV.Idx → EReal)
    (hx : ∀ i, ∃ r : ℝ, x i = (r : EReal)) (hp : ∀ i, ∃ r : ℝ, p i = (r : EReal)) :
    kerOut x p g be = refOut x p g be :=
  funext fun i => kerAt_eq_refAt x p g be hx hp (i 0) (i 1) (i 2)

end Cert.LayerNorm

end
-- ==== Proof.Finite.lean ====
/-
  The precondition read back. It is the conjunction of four tests "every entry of this array is smaller in absolute
  value than +∞", each an `and`-reduction over all axes of a pointwise comparison. From the conjunction being true the
  first two reductions are true, so every comparison under them is: for each entry `v` of the activations and of the
  position table, `max v (−v) < +∞` on the extended reals, which excludes both infinities: `v` is a real number.
-/
import proofs.«171602_g7713761264236_cont_9to1c4b_83_7_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Pre_finite_inputs.Gen

/-- The rank-0 shape has one index. -/
instance : Subsingleton S_.Idx := ⟨fun _ _ => funext fun d => d.elim0⟩

/-- The word `0x7F800000` denotes `+∞`. -/
theorem ofBits_inf : Ideal.ofBits .f32 0x7F800000#32 = ⊤ := by
  simp [Ideal.ofBits, Ideal.ieee]

/-- An extended real whose absolute value `max v (−v)` is below `+∞` is a real number. -/
theorem real_of_abs_lt (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | coe r => exact ⟨r, rfl⟩
  | top => simp [Ideal.cmp] at h

/-- Under the precondition every entry of the activations and of the position table is a real number. -/
theorem real_of_pre (x : FVec Ideal S4x2048x1024 .f32) (p : FVec Ideal S2048x1024 .f32) (g be : FVec Ideal S1024 .f32)
    (h : fn (F := Ideal) x p g be = fun _ => 1#1) :
    (∀ i, ∃ r : ℝ, x i = (r : EReal)) ∧ (∀ i, ∃ r : ℝ, p i = (r : EReal)) := by
  have h0 := congrFun h ValueIdx.ix0
  dsimp only [fn, fn_part1] at h0
  have h1 : IntOp.andi (IntOp.andi (IntOp.andi _ _) _) _ = 1#1 := h0
  rw [IntOp.andi_eq_one, IntOp.andi_eq_one, IntOp.andi_eq_one] at h1
  obtain ⟨⟨⟨hx, hp⟩, -⟩, -⟩ := h1
  exact ⟨fun i => real_of_abs_lt (x i) (Host.reduce_andi_all _ _ _ _ _ hx i),
    fun i => real_of_abs_lt (p i) (Host.reduce_andi_all _ _ _ _ _ hp i)⟩

end Cert.Finite

end
-- ==== Proof.lean ====
/-
  LayerNorm of `x + pos_table` over the last axis, with scale and shift, computed two ways.

  The kernel adds the position table to one batch entry per grid point, takes each row's mean as the row sum times
  2⁻¹⁰ and its variance as (mean of squares) − mean², and multiplies the centred row by the reciprocal square root of
  (variance + ε), then by the scale, and adds the shift. The reference gathers the position rows through the indices
  0 … 2047 (each in range, so the gather returns the table itself), divides the sums by 1024, takes the variance as the
  mean of the squared deviations, and divides the centred row by the square root of (variance + ε).

  Each program's result array is read as one function of the argument arrays, index by index (the kernel's from the
  blocks its grid points write back, which cover the array; the reference's from its run, operation by operation). Under
  the precondition every activation and every position entry is a real number; then 2⁻¹⁰ is exactly 1/1024, the two
  variances are one nonnegative real, ε is positive, and on the positive real variance + ε the reciprocal square root is
  1/√ and a quotient by √ is a product with 1/√: the two functions agree. The scale and the shift enter both the same
  way and need no finiteness.

  The two kernel programs' frames are the generated frame certificates; the reference's frame is its run with the result
  dropped; the idealization rewrote nothing, so it preserves trivially.
-/
import proofs.«171602_g7713761264236_cont_9to1c4b_83_7_alg».proof.Defs
import proofs.«171602_g7713761264236_cont_9to1c4b_83_7_alg».proof.Proof.Gen.Kernel
import proofs.«171602_g7713761264236_cont_9to1c4b_83_7_alg».proof.Proof.Gen.Kernel.Skeleton
import proofs.«171602_g7713761264236_cont_9to1c4b_83_7_alg».proof.Proof.Gen.Kernel.Launch
import proofs.«171602_g7713761264236_cont_9to1c4b_83_7_alg».proof.Proof.Gen.Kernel.Points
import proofs.«171602_g7713761264236_cont_9to1c4b_83_7_alg».proof.Proof.Gen.Kernel.Frame
import proofs.«171602_g7713761264236_cont_9to1c4b_83_7_alg».proof.Proof.Gen.KernelIdeal
import proofs.«171602_g7713761264236_cont_9to1c4b_83_7_alg».proof.Proof.Gen.KernelIdeal.Skeleton
import proofs.«171602_g7713761264236_cont_9to1c4b_83_7_alg».proof.Proof.Gen.KernelIdeal.Launch
import proofs.«171602_g7713761264236_cont_9to1c4b_83_7_alg».proof.Proof.Gen.KernelIdeal.Points
import proofs.«171602_g7713761264236_cont_9to1c4b_83_7_alg».proof.Proof.Gen.KernelIdeal.Frame
import proofs.«171602_g7713761264236_cont_9to1c4b_83_7_alg».proof.Proof.Gen.ReferenceIdeal
import proofs.«171602_g7713761264236_cont_9to1c4b_83_7_alg».proof.Proof.Gen.Pre_finite_inputs
import Idealize.ShloMosaic.Adequacy
import Idealize.ShloMosaic.Init
import proofs.«171602_g7713761264236_cont_9to1c4b_83_7_alg».proof.Proof.KernelValue
import proofs.«171602_g7713761264236_cont_9to1c4b_83_7_alg».proof.Proof.RefValue
import proofs.«171602_g7713761264236_cont_9to1c4b_83_7_alg».proof.Proof.Algebra
import proofs.«171602_g7713761264236_cont_9to1c4b_83_7_alg».proof.Proof.Finite

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.RValue.run m ρ)

theorem preserves : Cert.preserves_Kernel_KernelIdeal := trivial

/-- Both programs end with the kernel's form of the arguments: the kernel by its run, the reference because its own
    form agrees with the kernel's on real activations and positions, which the precondition gives. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  obtain ⟨hx, hp⟩ := Cert.Finite.real_of_pre _ _ _ _ (hpre c)
  rw [(hagree c).1, (hagree c).2.1, (hagree c).2.2.1, (hagree c).2.2.2]
  exact (Cert.LayerNorm.kerOut_eq_refOut _ _ _ _ hx hp).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
